-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S128x64 : Shape := ⟨2, ![128, 64]⟩
abbrev S1x64 : Shape := ⟨2, ![1, 64]⟩
abbrev S100000x64 : Shape := ⟨2, ![100000, 64]⟩
abbrev S4000x64 : Shape := ⟨2, ![4000, 64]⟩
abbrev S4000 : Shape := ⟨1, ![4000]⟩
abbrev S4000x1 : Shape := ⟨2, ![4000, 1]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x64, .f32⟩
  | .hbm, ⟨60, _⟩ => ⟨S128x64, .f32⟩
  | .hbm, ⟨61, _⟩ => ⟨S1x64, .f32⟩
  | .hbm, ⟨62, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Graph.lean ====
/-
  The graph part of the network, as whole-array terms of the host operations both programs use.

  From the edge list e : i32[2, 1600000]: its source row with negative entries wrapped by the node count
  (gather indices) and its destination row (scatter indices); the in-degree of every node clamped below at one,
  d = max(deg, 1); the neighbour SUM of a feature matrix x, S = scatter-add over destinations of the gathered
  source rows.  The neighbour MEAN is written in two ways: S times the broadcast reciprocal 1 / d, and S divided
  by the broadcast d.  Gather and scatter-add are never opened: both programs apply them to the same operands.
-/
import proofs.«143447_j79405355368448_1_alg».proof.Proof.Gen.KernelIdeal

noncomputable section

namespace Cert.KernelIdeal.Graph

open Idealize.ShloMosaic Cert.KernelIdeal Cert.KernelIdeal.Facts₀

variable {F : FTy → Type} [FloatOps F]

/-- Row 0 of the edge list: the source node of every edge. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list: the destination node of every edge. -/
def dstRow (e : IVec S2x1600000 32) : IVec S1600000 32 :=
  shapeCast S1600000 (extractStridedSlice S1x1600000 ![1, 0] e slices_S2x1600000_S1x1600000_1_0) shapeCasts_S1x1600000_S1600000

/-- The gather indices: a negative source index counts from the end (the node count is added to it). -/
def srcIdx (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32)))
      (srcRow e))

/-- The scatter indices: the destination row as a column. -/
def dstIdx (e : IVec S2x1600000 32) : IVec S1600000x1 32 :=
  broadcastInDim S1600000x1 ![0] bcast_S1600000_S1600000x1_0 (dstRow e)

/-- The in-degree of every node (a one scattered per edge onto its destination), clamped below at one. -/
def degMax (e : IVec S2x1600000 32) : FVec F S100000 .f32 :=
  maximumf
    (Host.scatterAdd scatter_S100000_S1600000x1_S1600000_n_0_0_1
      (broadcastInDim S100000 ![] bcast_S_S100000 (constant S_ .f32 0x00000000#32))
      (dstIdx e)
      (broadcastInDim S1600000 ![] bcast_S_S1600000 (constant S_ .f32 0x3F800000#32)))
    (broadcastInDim S100000 ![] bcast_S_S100000 (constant S_ .f32 0x3F800000#32))

/-- The neighbour sum: the source rows of `x` gathered per edge and added onto the destination rows. -/
def nbrSum (x : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32))
    (dstIdx e)
    (Host.gather gather_S100000x128_S1600000x1_S1600000x128_1_0_n_n_0_1_1128 x (srcIdx e))

/-- The reciprocal of the clamped degree, as a column. -/
def invDeg (e : IVec S2x1600000 32) : FVec F S100000x1 .f32 :=
  broadcastInDim S100000x1 ![0] bcast_S100000_S100000x1_0
    (Host.divf (broadcastInDim S100000 ![] bcast_S_S100000 (constant S_ .f32 0x3F800000#32)) (degMax (F := F) e))

/-- The neighbour mean as the sum times the reciprocal degree. -/
def meanMul (x : FVec F S100000x128 .f32) (e : IVec S2x1600000 32) : FVec F S100000x128 .f32 :=
  mulf (nbrSum x e) (broadcastInDim S100000x128 ![0, 1] bcast_S100000x1_S100000x128_0_1 (invDeg (F := F) e))

/-- The neighbour mean as the sum divided by the degree. -/
def meanDiv (x : FVec F S100000x128 .f32) (e : IVec S2x1600000 32) : FVec F S100000x128 .f32 :=
  Host.divf (nbrSum x e)
    (broadcastInDim S100000x128 ![0, 1] bcast_S100000x1_S100000x128_0_1
      (broadcastInDim S100000x1 ![0] bcast_S100000_S100000x1_0 (degMax (F := F) e)))

end Cert.KernelIdeal.Graph

end
-- ==== Proof.RefTerms.lean ====
/-
  The reference program's dense part, as whole-array terms of its own host operations.

  `preact128` / `preact64`: one layer before its activation, (A · Wl + b) + X · Wr, the bias a vector broadcast
  along the rows; `reluOps`: the maximum with the zero array; `logSoftmaxOps`: with M the row maxima (a max-reduce
  from minus infinity, then once more the maximum with minus infinity), z = x - M, the result z - log (row sums of exp z).
  `hiddenRef` and `refOut` put the two layers together over the graph part (the neighbour mean as a quotient).
-/
import proofs.«143447_j79405355368448_1_alg».proof.Proof.Gen.ReferenceIdeal
import proofs.«143447_j79405355368448_1_alg».proof.Proof.Graph

noncomputable section

namespace Cert.ReferenceIdeal.Terms

open Idealize.ShloMosaic Cert.ReferenceIdeal Cert.ReferenceIdeal.Facts₀

variable {F : FTy → Type} [FloatOps F]

/-- The first layer before its activation: 128 output features. -/
def preact128 (A X : FVec F S100000x128 .f32) (Wl Wr : FVec F S128x128 .f32) (b : FVec F S128 .f32) : FVec F S100000x128 .f32 :=
  addf
    (addf (Host.dotGeneral dot_S100000x128_S128x128_S100000x128_1_0_0_1_n_n none A Wl)
      (broadcastInDim S100000x128 ![0, 1] bcast_S1x128_S100000x128_0_1 (broadcastInDim S1x128 ![1] bcast_S128_S1x128_1 b)))
    (Host.dotGeneral dot_S100000x128_S128x128_S100000x128_1_0_0_1_n_n none X Wr)

/-- The second layer before its activation: 64 output features. -/
def preact64 (A X : FVec F S100000x128 .f32) (Wl Wr : FVec F S128x64 .f32) (b : FVec F S64 .f32) : FVec F S100000x64 .f32 :=
  addf
    (addf (Host.dotGeneral dot_S100000x128_S128x64_S100000x64_1_0_0_1_n_n none A Wl)
      (broadcastInDim S100000x64 ![0, 1] bcast_S1x64_S100000x64_0_1 (broadcastInDim S1x64 ![1] bcast_S64_S1x64_1 b)))
    (Host.dotGeneral dot_S100000x128_S128x64_S100000x64_1_0_0_1_n_n none X Wr)

/-- The maximum with the zero array. -/
def reluOps (z : FVec F S100000x128 .f32) : FVec F S100000x128 .f32 :=
  maximumf z (broadcastInDim S100000x128 ![] bcast_S_S100000x128 (constant S_ .f32 0x00000000#32))

/-- A matrix minus its row maxima. -/
def centred (z : FVec F S100000x64 .f32) : FVec F S100000x64 .f32 :=
  subf z
    (broadcastInDim S100000x64 ![0, 1] bcast_S100000x1_S100000x64_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x64_S100000_d1 h_S_))))

/-- The row-wise log-softmax. -/
def logSoftmaxOps (z : FVec F S100000x64 .f32) : FVec F S100000x64 .f32 :=
  subf (centred z)
    (broadcastInDim S100000x64 ![0, 1] bcast_S100000x1_S100000x64_0_1
      (Host.log
        (broadcastInDim S100000x1 ![0] bcast_S100000_S100000x1_0
          (Host.reduceAdd (Host.exp (centred z)) (constant S_ .f32 0x00000000#32) reducesTo_S100000x64_S100000_d1 h_S_))))

/-- The first layer's output over the graph part. -/
def hiddenRef (x : FVec F S100000x128 .f32) (e : IVec S2x1600000 32) (w1l : FVec F S128x128 .f32) (b1 : FVec F S128 .f32)
    (w1r : FVec F S128x128 .f32) : FVec F S100000x128 .f32 :=
  reluOps (preact128 (Cert.KernelIdeal.Graph.meanDiv x e) x
    (transpose S128x128 [1, 0] w1l transposes_S128x128_S128x128_1_0) (transpose S128x128 [1, 0] w1r transposes_S128x128_S128x128_1_0) b1)

/-- The whole network's output over the graph part. -/
def refOut (x : FVec F S100000x128 .f32) (e : IVec S2x1600000 32) (w1l : FVec F S128x128 .f32) (b1 : FVec F S128 .f32)
    (w1r : FVec F S128x128 .f32) (w2l : FVec F S64x128 .f32) (b2 : FVec F S64 .f32) (w2r : FVec F S64x128 .f32) : FVec F S100000x64 .f32 :=
  logSoftmaxOps (preact64 (Cert.KernelIdeal.Graph.meanDiv (hiddenRef x e w1l b1 w1r) e) (hiddenRef x e w1l b1 w1r)
    (transpose S128x64 [1, 0] w2l transposes_S64x128_S128x64_1_0) (transpose S128x64 [1, 0] w2r transposes_S64x128_S128x64_1_0) b2)

end Cert.ReferenceIdeal.Terms

end
-- ==== Proof.RefVal.lean ====
import proofs.«143447_j79405355368448_1_alg».proof.Proof.RefRun
import proofs.«143447_j79405355368448_1_alg».proof.Proof.RefTerms
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Facts₀ Cert.ReferenceIdeal.Terms

variable {F : FTy → Type} [FloatOps F]

/-! ## The operations in four stretches -/

/-- The first layer before its activation: the graph part, the two products and the bias (operations 1 to 37). -/
abbrev opsA : List (HloOp τ sig (Elt F)) :=
  [ unary main_arg1 main_v0 ((extractStridedSlice S1x1600000 ![0, 0] · Gen.slices_S2x1600000_S1x1600000_0_0) : (⟨S2x1600000, .i32⟩ : BufTy).Contents (Elt F) → (⟨S1x1600000, .i32⟩ : BufTy).Contents (Elt F)),
    reshape main_v0 main_v1 rfl Gen.shapeCasts_S1x1600000_S1600000,
    unary main_arg1 main_v2 ((extractStridedSlice S1x1600000 ![1, 0] · Gen.slices_S2x1600000_S1x1600000_1_0) : (⟨S2x1600000, .i32⟩ : BufTy).Contents (Elt F) → (⟨S1x1600000, .i32⟩ : BufTy).Contents (Elt F)),
    reshape main_v2 main_v3 rfl Gen.shapeCasts_S1x1600000_S1600000,
    nullary main_c (constantI S_ 32 0#32),
    unary main_c main_v4 (broadcastInDim S1600000 ![] Gen.bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] Gen.bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] Gen.bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] Gen.bcast_S_S100000x128 : (⟨S_, .f32⟩ : BufTy).Contents (Elt F) → (⟨S100000x128, .f32⟩ : BufTy).Contents (Elt F)),
    unary main_v3 main_v12 (broadcastInDim S1600000x1 ![0] Gen.bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] Gen.bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] Gen.bcast_S_S100000 : (⟨S_, .f32⟩ : BufTy).Contents (Elt F) → (⟨S100000, .f32⟩ : BufTy).Contents (Elt F)),
    unary main_v3 main_v16 (broadcastInDim S1600000x1 ![0] Gen.bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] Gen.bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] Gen.bcast_S100000_S100000x1_0 : (⟨S100000, .f32⟩ : BufTy).Contents (Elt F) → (⟨S100000x1, .f32⟩ : BufTy).Contents (Elt F)),
    unary main_v20 main_v21 (broadcastInDim S100000x128 ![0, 1] Gen.bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x128 [1, 0] · Gen.transposes_S128x128_S128x128_1_0) : (⟨S128x128, .f32⟩ : BufTy).Contents (Elt F) → (⟨S128x128, .f32⟩ : BufTy).Contents (Elt F)),
    binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v25 (broadcastInDim S1x128 ![1] Gen.bcast_S128_S1x128_1 : (⟨S128, .f32⟩ : BufTy).Contents (Elt F) → (⟨S1x128, .f32⟩ : BufTy).Contents (Elt F)),
    unary main_v25 main_v26 (broadcastInDim S100000x128 ![0, 1] Gen.bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S128x128 [1, 0] · Gen.transposes_S128x128_S128x128_1_0) : (⟨S128x128, .f32⟩ : BufTy).Contents (Elt F) → (⟨S128x128, .f32⟩ : BufTy).Contents (Elt F)),
    binary main_arg0 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The first layer's activation (operations 38 to 40). -/
abbrev opsR : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] Gen.bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- The second layer before its activation, over the first layer's output (operations 41 to 73). -/
abbrev opsB : List (HloOp τ sig (Elt F)) :=
  [ nullary main_c_4 (constantI S_ 32 0#32),
    unary main_c_4 main_v32 (broadcastInDim S1600000 ![] Gen.bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v34 (broadcastInDim S1600000 ![] Gen.bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] Gen.bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v39 (broadcastInDim S100000x128 ![] Gen.bcast_S_S100000x128 : (⟨S_, .f32⟩ : BufTy).Contents (Elt F) → (⟨S100000x128, .f32⟩ : BufTy).Contents (Elt F)),
    unary main_v3 main_v40 (broadcastInDim S1600000x1 ![0] Gen.bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v42 (broadcastInDim S1600000 ![] Gen.bcast_S_S1600000 : (⟨S_, .f32⟩ : BufTy).Contents (Elt F) → (⟨S1600000, .f32⟩ : BufTy).Contents (Elt F)),
    nullary main_cst_8 (constant S_ .f32 0x00000000#32),
    unary main_cst_8 main_v43 (broadcastInDim S100000 ![] Gen.bcast_S_S100000 : (⟨S_, .f32⟩ : BufTy).Contents (Elt F) → (⟨S100000, .f32⟩ : BufTy).Contents (Elt F)),
    unary main_v3 main_v44 (broadcastInDim S1600000x1 ![0] Gen.bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v46 (broadcastInDim S100000 ![] Gen.bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)),
    unary main_v47 main_v48 (broadcastInDim S100000x1 ![0] Gen.bcast_S100000_S100000x1_0 : (⟨S100000, .f32⟩ : BufTy).Contents (Elt F) → (⟨S100000x1, .f32⟩ : BufTy).Contents (Elt F)),
    unary main_v48 main_v49 (broadcastInDim S100000x128 ![0, 1] Gen.bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)),
    unary main_arg5 main_v51 ((transpose S128x64 [1, 0] · Gen.transposes_S64x128_S128x64_1_0) : (⟨S64x128, .f32⟩ : BufTy).Contents (Elt F) → (⟨S128x64, .f32⟩ : BufTy).Contents (Elt F)),
    binary main_v50 main_v51 main_v52 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg6 main_v53 (broadcastInDim S1x64 ![1] Gen.bcast_S64_S1x64_1 : (⟨S64, .f32⟩ : BufTy).Contents (Elt F) → (⟨S1x64, .f32⟩ : BufTy).Contents (Elt F)),
    unary main_v53 main_v54 (broadcastInDim S100000x64 ![0, 1] Gen.bcast_S1x64_S100000x64_0_1 : (⟨S1x64, .f32⟩ : BufTy).Contents (Elt F) → (⟨S100000x64, .f32⟩ : BufTy).Contents (Elt F)),
    binary main_v52 main_v54 main_v55 (addf : (⟨S100000x64, .f32⟩ : BufTy).Contents (Elt F) → (⟨S100000x64, .f32⟩ : BufTy).Contents (Elt F) → (⟨S100000x64, .f32⟩ : BufTy).Contents (Elt F)),
    unary main_arg7 main_v56 ((transpose S128x64 [1, 0] · Gen.transposes_S64x128_S128x64_1_0) : (⟨S64x128, .f32⟩ : BufTy).Contents (Elt F) → (⟨S128x64, .f32⟩ : BufTy).Contents (Elt F)),
    binary main_v31 main_v56 main_v57 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v55 main_v57 main_v58 (addf : (⟨S100000x64, .f32⟩ : BufTy).Contents (Elt F) → (⟨S100000x64, .f32⟩ : BufTy).Contents (Elt F) → (⟨S100000x64, .f32⟩ : BufTy).Contents (Elt F)) ]

/-- The row-wise log-softmax (operations 74 to 88). -/
abbrev opsL : List (HloOp τ sig (Elt F)) :=
  [ TRef.nullary (TRef.of (T := ⟨S_, .f32⟩) main_call1_cst) (constant S_ .f32 0xFF800000#32),
    TRef.binary (TRef.of (T := ⟨S100000x64, .f32⟩) main_v58) (TRef.of (T := ⟨S_, .f32⟩) main_call1_cst) (TRef.of (T := ⟨S100000, .f32⟩) main_call1_v0) (fun x v => Host.reduce FloatOps.maximumf x v Gen.reducesTo_S100000x64_S100000_d1 Gen.h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] Gen.bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] Gen.bcast_S100000_S100000x1_0),
    TRef.unary (TRef.of (T := ⟨S100000x1, .f32⟩) main_call1_v3) (TRef.of (T := ⟨S100000x64, .f32⟩) main_call1_v4) (broadcastInDim S100000x64 ![0, 1] Gen.bcast_S100000x1_S100000x64_0_1),
    TRef.binary (TRef.of (T := ⟨S100000x64, .f32⟩) main_v58) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v Gen.reducesTo_S100000x64_S100000_d1 Gen.h_S_),
    TRef.unary (TRef.of (T := ⟨S100000, .f32⟩) main_call1_v7) (TRef.of (T := ⟨S100000x1, .f32⟩) main_call1_v8) (broadcastInDim S100000x1 ![0] Gen.bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] Gen.bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v59) subf ]

/-- The whole line is the four stretches in order. -/
theorem ops_split : (Cert.ReferenceIdeal.ValueP.ops (F := F)) = opsA ++ (opsR ++ (opsB ++ opsL)) := rfl

/-- The contents after two lines run in order are the second's from the first's. -/
theorem after_concat (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The first layer before its activation -/

/-- The first stretch leaves, in the first layer's pre-activation buffer, the layer of the neighbour mean and the
    features it finds in the arguments' buffers, with the two weight matrices transposed. -/
theorem after_A (W : Valuation τ sig (Elt F)) :
    after (opsA (F := F)) W (Proc.devRef .tc main_v30)
      = preact128 (Cert.KernelIdeal.Graph.meanDiv (W (Proc.devRef .tc main_arg0)) (W (Proc.devRef .tc main_arg1))) (W (Proc.devRef .tc main_arg0))
          (transpose S128x128 [1, 0] (W (Proc.devRef .tc main_arg2)) Gen.transposes_S128x128_S128x128_1_0)
          (transpose S128x128 [1, 0] (W (Proc.devRef .tc main_arg4)) Gen.transposes_S128x128_S128x128_1_0)
          (W (Proc.devRef .tc main_arg3)) := by
  after_results_simp
  rfl

/-- It leaves the edge list's source row in its buffer, -/
theorem after_A_src (W : Valuation τ sig (Elt F)) :
    after (opsA (F := F)) W (Proc.devRef .tc main_v1) = Cert.KernelIdeal.Graph.srcRow (W (Proc.devRef .tc main_arg1)) := by
  after_results_simp
  rfl

/-- and the destination row in its own. -/
theorem after_A_dst (W : Valuation τ sig (Elt F)) :
    after (opsA (F := F)) W (Proc.devRef .tc main_v3) = Cert.KernelIdeal.Graph.dstRow (W (Proc.devRef .tc main_arg1)) := by
  after_results_simp
  rfl

/-- It writes none of the arguments it does not read: the edge list, -/
theorem after_A_e (W : Valuation τ sig (Elt F)) : after (opsA (F := F)) W (Proc.devRef .tc main_arg1) = W (Proc.devRef .tc main_arg1) := by
  after_results_simp <;> rfl
/-- the second layer's first weight matrix, -/
theorem after_A_w2l (W : Valuation τ sig (Elt F)) : after (opsA (F := F)) W (Proc.devRef .tc main_arg5) = W (Proc.devRef .tc main_arg5) := by
  after_results_simp <;> rfl
/-- the second layer's bias, -/
theorem after_A_b2 (W : Valuation τ sig (Elt F)) : after (opsA (F := F)) W (Proc.devRef .tc main_arg6) = W (Proc.devRef .tc main_arg6) := by
  after_results_simp <;> rfl
/-- and the second layer's second weight matrix. -/
theorem after_A_w2r (W : Valuation τ sig (Elt F)) : after (opsA (F := F)) W (Proc.devRef .tc main_arg7) = W (Proc.devRef .tc main_arg7) := by
  after_results_simp <;> rfl

/-! ## The first layer's activation -/

/-- A transport along an equation of types and back along its converse is the identity. -/
theorem cast_back {α β : Type} (h₁ : α = β) (h₂ : β = α) (a : α) : cast h₂ (cast h₁ a) = a := by
  subst h₁; rfl

/-- The activation stretch leaves the maximum with zero of what it finds in the pre-activation buffer. -/
theorem after_R (W : Valuation τ sig (Elt F)) :
    after (opsR (F := F)) W (Proc.devRef .tc main_v31) = reluOps (W (Proc.devRef .tc main_v30)) := by
  after_results_simp
  simp only [cast_back]
  rfl

/-- It writes neither of the edge list's two rows, -/
theorem after_R_src (W : Valuation τ sig (Elt F)) : after (opsR (F := F)) W (Proc.devRef .tc main_v1) = W (Proc.devRef .tc main_v1) := by
  after_results_simp <;> rfl
/-- (the destination row) -/
theorem after_R_dst (W : Valuation τ sig (Elt F)) : after (opsR (F := F)) W (Proc.devRef .tc main_v3) = W (Proc.devRef .tc main_v3) := by
  after_results_simp <;> rfl
/-- nor the second layer's parameters: the first weight matrix, -/
theorem after_R_w2l (W : Valuation τ sig (Elt F)) : after (opsR (F := F)) W (Proc.devRef .tc main_arg5) = W (Proc.devRef .tc main_arg5) := by
  after_results_simp <;> rfl
/-- the bias, -/
theorem after_R_b2 (W : Valuation τ sig (Elt F)) : after (opsR (F := F)) W (Proc.devRef .tc main_arg6) = W (Proc.devRef .tc main_arg6) := by
  after_results_simp <;> rfl
/-- the second weight matrix. -/
theorem after_R_w2r (W : Valuation τ sig (Elt F)) : after (opsR (F := F)) W (Proc.devRef .tc main_arg7) = W (Proc.devRef .tc main_arg7) := by
  after_results_simp <;> rfl

/-! ## The second layer before its activation -/

/-- The neighbour mean of a feature matrix from the edge list's two rows: the sum over every node's in-edges of the
    source's features (a negative source index counted from the end), divided by the in-degree clamped below at one. -/
def meanRows (x : FVec F S100000x128 .f32) (s d : IVec S1600000 32) : FVec F S100000x128 .f32 :=
  Host.divf
    (Host.scatterAdd scatter_S100000x128_S1600000x1_S1600000x128_1_0_0_1
      (broadcastInDim S100000x128 ![] Gen.bcast_S_S100000x128 (constant S_ .f32 0x00000000#32))
      (broadcastInDim S1600000x1 ![0] Gen.bcast_S1600000_S1600000x1_0 d)
      (Host.gather gather_S100000x128_S1600000x1_S1600000x128_1_0_n_n_0_1_1128 x
        (broadcastInDim S1600000x1 ![0] Gen.bcast_S1600000_S1600000x1_0
          (select (cmpi .slt s (broadcastInDim S1600000 ![] Gen.bcast_S_S1600000 (constantI S_ 32 0#32)))
            (addi s (broadcastInDim S1600000 ![] Gen.bcast_S_S1600000 (constantI S_ 32 100000#32)))
            s))))
    (broadcastInDim S100000x128 ![0, 1] Gen.bcast_S100000x1_S100000x128_0_1
      (broadcastInDim S100000x1 ![0] Gen.bcast_S100000_S100000x1_0
        (maximumf
          (Host.scatterAdd scatter_S100000_S1600000x1_S1600000_n_0_0_1
            (broadcastInDim S100000 ![] Gen.bcast_S_S100000 (constant S_ .f32 0x00000000#32))
            (broadcastInDim S1600000x1 ![0] Gen.bcast_S1600000_S1600000x1_0 d)
            (broadcastInDim S1600000 ![] Gen.bcast_S_S1600000 (constant S_ .f32 0x3F800000#32)))
          (broadcastInDim S100000 ![] Gen.bcast_S_S100000 (constant S_ .f32 0x3F800000#32)))))

/-- From the two rows of an edge list it is the neighbour mean over that edge list. -/
theorem meanRows_rows (x : FVec F S100000x128 .f32) (e : IVec S2x1600000 32) :
    meanRows x (Cert.KernelIdeal.Graph.srcRow e) (Cert.KernelIdeal.Graph.dstRow e) = Cert.KernelIdeal.Graph.meanDiv x e := rfl

/-- The third stretch leaves, in the second layer's pre-activation buffer, the layer of the neighbour mean (over the
    two rows it finds in their buffers) and the features it finds in the first layer's output buffer. -/
theorem after_B (W : Valuation τ sig (Elt F)) :
    after (opsB (F := F)) W (Proc.devRef .tc main_v58)
      = preact64 (meanRows (W (Proc.devRef .tc main_v31)) (W (Proc.devRef .tc main_v1)) (W (Proc.devRef .tc main_v3))) (W (Proc.devRef .tc main_v31))
          (transpose S128x64 [1, 0] (W (Proc.devRef .tc main_arg5)) Gen.transposes_S64x128_S128x64_1_0)
          (transpose S128x64 [1, 0] (W (Proc.devRef .tc main_arg7)) Gen.transposes_S64x128_S128x64_1_0)
          (W (Proc.devRef .tc main_arg6)) := by
  after_results_simp
  rfl

/-! ## The log-softmax -/

/-- The last stretch leaves the row-wise log-softmax of what it finds in the second layer's pre-activation buffer. -/
theorem after_L (W : Valuation τ sig (Elt F)) :
    after (opsL (F := F)) W (Proc.devRef .tc main_v59) = logSoftmaxOps (W (Proc.devRef .tc main_v58)) := by
  after_results_simp
  simp only [cast_back]
  rfl

/-! ## The four stretches in order -/

/-- What the reference's operations leave in its result buffer, from the launch contents: the network's output
    over the graph part, as the whole-array term `refOut` of the eight arguments. -/
theorem ref_value (m : (ℓ : Loc nD τ sig) → Buf (Elt F) ℓ) (c : Dev nD) :
    after (Cert.ReferenceIdeal.ValueP.ops (F := F)) (launchContents m c) (Proc.devRef .tc main_v59)
      = refOut (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [ops_split, after_concat, after_concat, after_concat, after_L, after_B,
    after_R, after_R_src, after_R_dst, after_R_w2l, after_R_b2, after_R_w2r,
    after_A, after_A_src, after_A_dst, after_A_w2l, after_A_b2, after_A_w2r, meanRows_rows]
  rfl

end Cert.ReferenceIdeal.RefValue

end
-- ==== Proof.KHost.lean ====
/-
  What the kernel program's host operations leave in the arrays its two regions read.

  Before region 0: the neighbour mean of x (the sum times the reciprocal degree), x itself, the two weight
  matrices transposed and the bias as a row.  Between the regions the edge rows and the reciprocal degree are
  still what the first stretch computed (region 0 writes only its own output), so region 1 finds the neighbour
  mean of region 0's output, that output, and the second layer's transposed weights and bias row.
-/
import proofs.«143447_j79405355368448_1_alg».proof.Proof.KernelRun
import proofs.«143447_j79405355368448_1_alg».proof.Proof.Graph
import Idealize.ShloMosaic.Lib.StableHlo.Run

set_option maxRecDepth 16384

noncomputable section

namespace Cert.KernelIdeal.HostV

open Idealize.ShloMosaic Idealize.ShloMosaic.TcCoe Idealize.SL.Sem Idealize.ShloMosaic.StableHlo
open Cert.KernelIdeal Cert.KernelIdeal.Gen Cert.KernelIdeal.Graph

variable {F : FTy → Type} [FloatOps F]
variable (m : (ℓ : Loc nD τ sig) → Buf (Elt F) ℓ) (ρ : Dev nD → PrngReg)

/-! ## Region 0's inputs -/

theorem V1_v24 (c : Dev nD) :
    V1 m ρ c main_v24 = meanMul (F := F) (m ((c : Thread nD τ).loc main_arg0)) (m ((c : Thread nD τ).loc main_arg1)) := by
  show StableHlo.after hostOps0 (W0 m ρ c) (Proc.devRef .tc main_v24) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v25 (c : Dev nD) :
    V1 m ρ c main_v25 = transpose S128x128 [1, 0] (m ((c : Thread nD τ).loc main_arg2)) transposes_S128x128_S128x128_1_0 := by
  show StableHlo.after hostOps0 (W0 m ρ c) (Proc.devRef .tc main_v25) = _
  after_results_simp <;> rfl

theorem V1_v26 (c : Dev nD) :
    V1 m ρ c main_v26 = transpose S128x128 [1, 0] (m ((c : Thread nD τ).loc main_arg4)) transposes_S128x128_S128x128_1_0 := by
  show StableHlo.after hostOps0 (W0 m ρ c) (Proc.devRef .tc main_v26) = _
  after_results_simp <;> rfl

theorem V1_v27 (c : Dev nD) :
    V1 m ρ c main_v27 = shapeCast S1x128 (m ((c : Thread nD τ).loc main_arg3)) shapeCasts_S128_S1x128 := by
  show StableHlo.after hostOps0 (W0 m ρ c) (Proc.devRef .tc main_v27) = _
  after_results_simp <;> rfl

/-! ## What the second stretch reads of the first: unchanged by region 0 -/

theorem W2_v1 (c : Dev nD) : W2 m ρ c (Proc.devRef .tc main_v1) = srcRow (m ((c : Thread nD τ).loc main_arg1)) := by
  refine (W2_of_ne m ρ c main_v1 (by decide)).trans ?_
  show StableHlo.after hostOps0 (W0 m ρ c) (Proc.devRef .tc main_v1) = _
  after_results_simp <;> rfl

theorem W2_v3 (c : Dev nD) : W2 m ρ c (Proc.devRef .tc main_v3) = dstRow (m ((c : Thread nD τ).loc main_arg1)) := by
  refine (W2_of_ne m ρ c main_v3 (by decide)).trans ?_
  show StableHlo.after hostOps0 (W0 m ρ c) (Proc.devRef .tc main_v3) = _
  after_results_simp <;> rfl

theorem W2_v12 (c : Dev nD) : W2 m ρ c (Proc.devRef .tc main_v12) = invDeg (F := F) (m ((c : Thread nD τ).loc main_arg1)) := by
  refine (W2_of_ne m ρ c main_v12 (by decide)).trans ?_
  show StableHlo.after hostOps0 (W0 m ρ c) (Proc.devRef .tc main_v12) = _
  after_results_simp <;> rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl

/-! ## Region 1's inputs, over region 0's output array -/

theorem V3_v40 (c : Dev nD) :
    V3 m ρ c main_v40 = meanMul (F := F) (W2 m ρ c (Proc.devRef .tc main_v28)) (m ((c : Thread nD τ).loc main_arg1)) := by
  show StableHlo.after hostOps1 (W2 m ρ c) (Proc.devRef .tc main_v40) = _
  after_results_simp
  rw [W2_v1, W2_v3, W2_v12]
  rfl

theorem V3_v28 (c : Dev nD) : V3 m ρ c main_v28 = W2 m ρ c (Proc.devRef .tc main_v28) := by
  show StableHlo.after hostOps1 (W2 m ρ c) (Proc.devRef .tc main_v28) = _
  after_results_simp <;> rfl

theorem V3_v41 (c : Dev nD) :
    V3 m ρ c main_v41 = transpose S128x64 [1, 0] (m ((c : Thread nD τ).loc main_arg5)) transposes_S64x128_S128x64_1_0 := by
  show StableHlo.after hostOps1 (W2 m ρ c) (Proc.devRef .tc main_v41) = _
  after_results_simp
  rw [W2_arg5]

theorem V3_v42 (c : Dev nD) :
    V3 m ρ c main_v42 = transpose S128x64 [1, 0] (m ((c : Thread nD τ).loc main_arg7)) transposes_S64x128_S128x64_1_0 := by
  show StableHlo.after hostOps1 (W2 m ρ c) (Proc.devRef .tc main_v42) = _
  after_results_simp
  rw [W2_arg7]

theorem V3_v43 (c : Dev nD) :
    V3 m ρ c main_v43 = shapeCast S1x64 (m ((c : Thread nD τ).loc main_arg6)) shapeCasts_S64_S1x64 := by
  show StableHlo.after hostOps1 (W2 m ρ c) (Proc.devRef .tc main_v43) = _
  after_results_simp
  rw [W2_arg6]
  rfl

end Cert.KernelIdeal.HostV

end
-- ==== Proof.Spec.lean ====
/-
  The mathematics of the two-layer mean-aggregation graph network, at the extended reals.

  One layer maps node features to
      out[r, j] = sum_k agg[r, k] * Wl[k, j]  +  sum_k x[r, k] * Wr[k, j]  +  b[j],
  where agg is the neighbour mean.  The three summands are added in two different groupings by the
  two programs (`linK`: the two products first, then the bias given as a row [1, O]; `linR`: the first
  product and the bias first, the bias a vector [O]); addition of extended reals is commutative and
  associative, so the groupings agree (`linK_eq_linR`).  The first layer ends in max(., 0), the second in
  a row-wise log-softmax: with M the row's maximum, z[j] = f[j] - M, the entry is
  z[j] - log (sum_k exp z[k])  (`lsm`).
  The neighbour mean divides a row of sums S[r, .] by d[r] = max(deg[r], 1): one program multiplies by
  1 / d[r], the other divides by d[r]; on the extended reals both are S * d⁻¹ as soon as d ≠ 0
  (`mul_inv_eq_div`), and max(., 1) is never 0 (`max_one_ne_zero`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- One layer before its activation, at node `r` and output feature `j`: the two matrix products added
    first, then the bias, which is a row `[1, O]`. -/
def linK {O : Nat} (A X : FVec Ideal ⟨2, ![100000, 128]⟩ .f32) (Wl Wr : FVec Ideal ⟨2, ![128, O]⟩ .f32)
    (b : FVec Ideal ⟨2, ![1, O]⟩ .f32) (r : Fin 100000) (j : Fin O) : EReal :=
  (∑ k : Fin 128, A (ix2 r k) * Wl (ix2 k j) + ∑ k : Fin 128, X (ix2 r k) * Wr (ix2 k j)) + b (ix2 (0 : Fin 1) j)

/-- The same layer with the first product and the bias added first, the bias a vector `[O]`. -/
def linR {O : Nat} (A X : FVec Ideal ⟨2, ![100000, 128]⟩ .f32) (Wl Wr : FVec Ideal ⟨2, ![128, O]⟩ .f32)
    (b : FVec Ideal ⟨1, ![O]⟩ .f32) (r : Fin 100000) (j : Fin O) : EReal :=
  (∑ k : Fin 128, A (ix2 r k) * Wl (ix2 k j) + b (ix1 j)) + ∑ k : Fin 128, X (ix2 r k) * Wr (ix2 k j)

/-- The two groupings agree once the bias row is the bias vector. -/
theorem linK_eq_linR {O : Nat} (A X : FVec Ideal ⟨2, ![100000, 128]⟩ .f32) (Wl Wr : FVec Ideal ⟨2, ![128, O]⟩ .f32)
    (bk : FVec Ideal ⟨2, ![1, O]⟩ .f32) (br : FVec Ideal ⟨1, ![O]⟩ .f32) (hb : ∀ j : Fin O, bk (ix2 (0 : Fin 1) j) = br (ix1 j))
    (r : Fin 100000) (j : Fin O) : linK A X Wl Wr bk r j = linR A X Wl Wr br r j := by
  unfold linK linR
  rw [hb j, add_right_comm]

/-- A row's maximum, folded from minus infinity (the pattern `0xFF800000`). -/
def rowmax (f : Fin 64 → EReal) : EReal :=
  (Finset.univ : Finset (Fin 64)).fold max (Ideal.ofBits .f32 0xFF800000#32) f

/-- The log-softmax of a row of 64 entries, at entry `j`. -/
def lsm (f : Fin 64 → EReal) (j : Fin 64) : EReal :=
  (f j - rowmax f) - Ideal.log (∑ k : Fin 64, Ideal.exp (f k - rowmax f))

/-- The first layer's output: the layer clamped below at zero. -/
def hidden (A X : FVec Ideal ⟨2, ![100000, 128]⟩ .f32) (Wl Wr : FVec Ideal ⟨2, ![128, 128]⟩ .f32)
    (b : FVec Ideal ⟨2, ![1, 128]⟩ .f32) : FVec Ideal ⟨2, ![100000, 128]⟩ .f32 :=
  fun i => max (linK A X Wl Wr b (i 0) (i 1)) 0

/-- The second layer's output: the row-wise log-softmax of the layer. -/
def logits (A X : FVec Ideal ⟨2, ![100000, 128]⟩ .f32) (Wl Wr : FVec Ideal ⟨2, ![128, 64]⟩ .f32)
    (b : FVec Ideal ⟨2, ![1, 64]⟩ .f32) : FVec Ideal ⟨2, ![100000, 64]⟩ .f32 :=
  fun i => lsm (fun j => linK A X Wl Wr b (i 0) j) (i 1)

/-- The pattern `0xFF800000` is minus infinity. -/
theorem ofBits_neg_inf : Ideal.ofBits .f32 0xFF800000#32 = (⊥ : EReal) := by simp [Ideal.ofBits, Ideal.ieee]

/-- The pattern `0x3F800000` is one. -/
theorem ofBits_one : Ideal.ofBits .f32 0x3F800000#32 = (1 : EReal) := IdealRules.sign_bit.ideal_onePat .f32

/-- `max(., 1)` is never zero. -/
theorem max_one_ne_zero (x : EReal) : max x 1 ≠ 0 :=
  ne_of_gt (lt_of_lt_of_le zero_lt_one (le_max_right x 1))

/-- Off zero, multiplying by the reciprocal is dividing. -/
theorem mul_inv_eq_div (s d : EReal) (hd : d ≠ 0) : s * Ideal.div 1 d = Ideal.div s d := by
  unfold Ideal.div
  rw [if_neg hd, if_neg hd, one_mul]

end Cert.Sage

end
-- ==== Proof.KVal0.lean ====
import proofs.«143447_j79405355368448_1_alg».proof.Proof.Gen.KernelIdeal.Frame
import proofs.«143447_j79405355368448_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val0

open Cert.KernelIdeal Cert.KernelIdeal.Gen Idealize.ShloMosaic.ValueIdx

variable (V : (c : Dev nD) → (b : Ref sig .tc) → Buf (Elt Ideal) ((c : Thread nD τ).loc b))

/-! ## The product of a block of rows with a weight matrix, entry by entry -/

/-- The left operand's row coordinate is the output's row. -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the summation index. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the summation index. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A matrix product accumulated into zero, at row `p` and column `q`: the sum over the 128 inner indices of the
    products of the row's entries with the column's. -/
theorem mm_apply {φ₁ φ₂ : FTy} (x : FVec Ideal S4000x128 φ₁) (w : FVec Ideal S128x128 φ₂) (p : Fin 4000) (q : Fin 128) :
    matmul dot_S4000x128_S128x128_S4000x128_1_0_0_1_n_n none x w (constant S4000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's value at an entry -/

/-- The bias row broadcast down the rows, at row `p` and column `q`: the row's entry at `q`. -/
theorem bias_apply (b : FVec Ideal S1x128 .f32) (p : Fin 4000) (q : Fin 128) :
    broadcastTo S4000x128 b broadcasts_S1x128_S4000x128 (ix2 p q) = b (ix2 (0 : Fin 1) q) := by
  refine broadcastTo_apply b broadcasts_S1x128_S4000x128 (ix2 p q) (ix2 (0 : Fin 1) q) (fun a => ?_)
  match a with
  | ⟨0, _⟩ => rfl
  | ⟨1, _⟩ => rfl

/-- The body's value at row `p` and column `q` of its block: the two products of the row with the two weight
    matrices, added, plus the bias at `q`, clamped below at zero. -/
theorem pay_apply (x0 x1 : Vec Ideal S4000x128 .f32) (x2 x3 : Vec Ideal S128x128 .f32) (x4 : Vec Ideal S1x128 .f32)
    (p : Fin 4000) (q : Fin 128) :
    k0_pay1 x0 x1 x2 x3 x4 (ix2 p q)
      = max ((∑ k : Fin 128, x0 (ix2 p k) * x2 (ix2 k q) + ∑ k : Fin 128, x1 (ix2 p k) * x3 (ix2 k q))
          + x4 (ix2 (0 : Fin 1) q)) 0 := by
  unfold k0_pay1
  simp only [shapeCast_self]
  rw [maximumf_apply, addf_apply, addf_apply, mm_apply, mm_apply, bias_apply, broadcast_apply]
  simp only [truncf_apply]
  exact congrArg (max _) Ideal.ofBits_zero_f32

/-! ## The layer on a block of rows -/

/-- If the block's rows are rows `ρ p` of the two node arrays, the body's value at row `p`, column `q` of the block is
    the first layer's output at row `ρ p`, column `q`. -/
theorem block_eq (A X : FVec Ideal S100000x128 .f32) (Wl Wr : FVec Ideal S128x128 .f32) (b : FVec Ideal S1x128 .f32)
    (x0 x1 : Vec Ideal S4000x128 .f32) (ρ : Fin 4000 → Fin 100000)
    (h0 : ∀ (p : Fin 4000) (k : Fin 128), x0 (ix2 p k) = A (ix2 (ρ p) k))
    (h1 : ∀ (p : Fin 4000) (k : Fin 128), x1 (ix2 p k) = X (ix2 (ρ p) k)) (p : Fin 4000) (q : Fin 128) :
    k0_pay1 x0 x1 Wl Wr b (ix2 p q) = Cert.Sage.hidden A X Wl Wr b (ix2 (ρ p) q) := by
  rw [pay_apply]
  simp only [h0, h1]
  rfl

/-! ## The blocks the grid's points read and write -/

/-- The zero offset on both axes, as a function of the axis. -/
theorem hz : (![0, 0] : Fin 2 → Nat) = fun _ => 0 := funext fun a => by fin_cases a <;> rfl

/-- The block indices, decided over the 25 points: the two node arrays and the result move down by one block of rows
    per point; the two weight matrices and the bias row stay whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `4000 t + p` of the array. -/
def row (t : Fin cfg0.N) (p : Fin 4000) : Fin 100000 :=
  ⟨t.val * 4000 + p.val, by have := t.isLt; have hN : cfg0.N = 25 := N_0; have := p.isLt; omega⟩

/-- The aggregated-features block at point `t`: rows `4000 t + p` of the array. -/
theorem iblk_0_apply (c : Dev nD) (t : Fin cfg0.N) (p : Fin 4000) (k : Fin 128) :
    (iblk0 V c 0 t : Vec Ideal S4000x128 .f32) (ix2 p k) = (V c main_v24 : S100000x128.Idx → Elt Ideal .f32) (ix2 (row t p) k) := by
  obtain ⟨e0, e1, -⟩ := idx_facts t
  unfold iblk0
  rw [View.read_apply]
  show V c main_v24 _ = V c main_v24 _
  congr 1
  funext a
  apply Fin.ext
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The node-features block at point `t`: rows `4000 t + p` of the array. -/
theorem iblk_1_apply (c : Dev nD) (t : Fin cfg0.N) (p : Fin 4000) (k : Fin 128) :
    (iblk0 V c 1 t : Vec Ideal S4000x128 .f32) (ix2 p k) = (V c main_arg0 : S100000x128.Idx → Elt Ideal .f32) (ix2 (row t p) k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- The first weight matrix's block at every point is the whole matrix. -/
theorem iblk_2_eq (c : Dev nD) (t : Fin cfg0.N) :
    (iblk0 V c 2 t : Vec Ideal S128x128 .f32) = (V c main_v25 : S128x128.Idx → Elt Ideal .f32) := by
  obtain ⟨-, -, -, -, e0, e1, -⟩ := idx_facts t
  funext j
  unfold iblk0
  rw [View.read_apply]
  show V c main_v25 _ = V c main_v25 _
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The second weight matrix's block at every point is the whole matrix. -/
theorem iblk_3_eq (c : Dev nD) (t : Fin cfg0.N) :
    (iblk0 V c 3 t : Vec Ideal S128x128 .f32) = (V c main_v26 : S128x128.Idx → Elt Ideal .f32) := by
  obtain ⟨-, -, -, -, -, -, e0, e1, -⟩ := idx_facts t
  funext j
  unfold iblk0
  rw [View.read_apply]
  show V c main_v26 _ = V c main_v26 _
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- The bias row's block at every point is the whole row. -/
theorem iblk_4_eq (c : Dev nD) (t : Fin cfg0.N) :
    (iblk0 V c 4 t : Vec Ideal S1x128 .f32) = (V c main_v27 : S1x128.Idx → Elt Ideal .f32) := by
  obtain ⟨-, -, -, -, -, -, -, -, e0, e1, -⟩ := idx_facts t
  funext j
  unfold iblk0
  rw [View.read_apply]
  show V c main_v27 _ = V c main_v27 _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- Row `p`, column `q` of the result's block at point `t` is row `4000 t + p`, column `q` of the array. -/
theorem emb_5 (t : Fin cfg0.N) (p : Fin 4000) (q : Fin 128) :
    (((cfg0.win 5).blk t).view.emb (ix2 p q) : S100000x128.Idx) = ix2 (row t p) q := by
  obtain ⟨-, -, -, -, -, -, -, -, -, -, e0, e1⟩ := idx_facts t
  funext a
  apply Fin.ext
  match a with
  | ⟨0, _⟩ => show win0_5.index t (0 : Fin 2) * 4000 + 1 * p.val = t.val * 4000 + p.val; rw [e0]; omega
  | ⟨1, _⟩ => show win0_5.index t (1 : Fin 2) * 128 + 1 * q.val = q.val; rw [e1]; omega

/-! ## What a point writes back, and the array after the last point -/

/-- Point `t` writes back block `t` of the first layer's output of the five arrays as the region finds them. -/
theorem flushed_eq (c : Dev nD) (t : Fin cfg0.N) :
    (dat0 (F := Ideal) V c).flushed 5 t
      = ((cfg0.win 5).blk t).view.read (Elt Ideal)
          (Cert.Sage.hidden (V c main_v24) (V c main_arg0) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  rw [iblk_2_eq, iblk_3_eq, iblk_4_eq]
  funext j
  obtain ⟨p, q, rfl⟩ : ∃ (p : Fin 4000) (q : Fin 128), j = ix2 p q := ⟨j 0, j 1, eq_ix2 j⟩
  rw [View.read_apply, emb_5]
  exact block_eq (V c main_v24) (V c main_arg0) (V c main_v25) (V c main_v26) (V c main_v27) (iblk0 V c 0 t) (iblk0 V c 1 t)
    (row t) (iblk_0_apply V c t) (iblk_1_apply V c t) p q

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v28).slice (win0_5.rect t)).set ↔ _
  rw [View.set_slice_whole, Rect.mem_set_unit]
  exact Iff.rfl

/-- Every entry of the array is in some point's block: row `r` is in the block of point `r / 4000`. -/
theorem cover (i : S100000x128.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 128 ≤ (i 1).val ∧ (i 1).val < win0_5.index t (1 : Fin 2) * 128 + 128; rw [e1]; omega

/-- Region 0's result array after the run, whatever the region finds in its arrays. -/
theorem final0 (c : Dev nD) :
    (dat0 (F := Ideal) V c).arrAt 5 cfg0.N
      = Cert.Sage.hidden (V c main_v24) (V c main_arg0) (V c main_v25) (V c main_v26) (V c main_v27) :=
  (dat0 (F := Ideal) V c).arrAt_eq_of_cover 5
    (Cert.Sage.hidden (V c main_v24) (V c main_arg0) (V c main_v25) (V c main_v26) (V c main_v27))
    (fun t _ => flushed_eq V c t) cover

end Cert.KernelIdeal.Val0

end
-- ==== Proof.KVal1.lean ====
import proofs.«143447_j79405355368448_1_alg».proof.Proof.Gen.KernelIdeal.Frame
import proofs.«143447_j79405355368448_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val1

open Cert.KernelIdeal Cert.KernelIdeal.Gen Idealize.ShloMosaic.ValueIdx

variable (V : (c : Dev nD) → (b : Ref sig .tc) → Buf (Elt Ideal) ((c : Thread nD τ).loc b))

/-! ## The matrix product at an entry -/

/-- The left operand's row coordinate is the output's row. -/
theorem lhs_dot_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand's column coordinate is the contracted index. -/
theorem lhs_dot_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- The right operand's row coordinate is the contracted index. -/
theorem rhs_dot_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- The right operand's column coordinate is the output's column. -/
theorem rhs_dot_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A [4000,128] by [128,64] product into the zero array, at entry (p, q): the sum over k of row p of the left
    operand times column q of the right. -/
theorem matmul_at (a : FVec Ideal S4000x128 .bf16) (w : FVec Ideal S128x64 .bf16) (p : Fin 4000) (q : Fin 64) :
    matmul dot_S4000x128_S128x64_S4000x64_1_0_0_1_n_n none a w (constant S4000x64 .f32 0x00000000#32) (ix2 p q)
      = ∑ k : Fin 128, a (ix2 p k) * w (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## A row's reductions and the column forms -/

/-- The reduced index p with column k put back is (p, k). -/
theorem lift_row (h : S4000x64.Reduces [1] S4000) (p : Fin 4000) (k : Fin (S4000x64.size 1)) :
    h.lift (ix1 p) k = ix2 p (⟨k.val, k.isLt⟩ : Fin 64) := by
  funext c; apply Fin.ext
  fin_cases c <;> rfl

/-- A [4000] array viewed [4000,1] reads, at (p, u), the operand at p. -/
theorem shapeCast_col_apply {α : Type} (x : S4000.Idx → α) (h : S4000.ShapeCasts S4000x1) (p : Fin 4000) (u : Fin 1) :
    shapeCast S4000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [4000,1] column broadcast to [4000,64] reads, at (p, q), the column at p. -/
theorem broadcastTo_col_apply {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ =>
    show p.val = if (4000 : Nat) = 1 then 0 else p.val
    rw [if_neg (by decide)]
  | ⟨1, _⟩ => rfl

/-- A row's maximum from minus infinity, at row p. -/
theorem rowmax_at (v : FVec Ideal S4000x64 .f32) (hφ : FKind.Formats .f32)
    (hacc : (0xFF800000#32 : BitVec 32) = FKind.maximumf.neutral .f32 hφ) (p : Fin 4000) :
    multiReduction (F := Ideal) .maximumf [1] S4000 v 0xFF800000#32 reduces_S4000x64_S4000 hφ hacc (ix1 p)
      = Cert.Sage.rowmax (fun j => v (ix2 p j)) := by
  refine (Ideal.multiReduction_maximumf_single v 0xFF800000#32 reduces_S4000x64_S4000 hφ hacc (ix1 p)).trans ?_
  have hf : (v ∘ reduces_S4000x64_S4000.lift (ix1 p)) = fun k : Fin 64 => v (ix2 p k) :=
    funext fun k => congrArg v (lift_row reduces_S4000x64_S4000 p k)
  rw [hf]
  rfl

/-- A row's sum, at row p. -/
theorem rowsum_at (v : FVec Ideal S4000x64 .f32) (hφ : FKind.Formats .f32)
    (hacc : (0x00000000#32 : BitVec 32) = FKind.add.neutral .f32 hφ) (p : Fin 4000) :
    multiReduction (F := Ideal) .add [1] S4000 v 0x00000000#32 reduces_S4000x64_S4000 hφ hacc (ix1 p)
      = ∑ k : Fin 64, v (ix2 p k) := by
  refine (Ideal.multiReduction_add_single v 0x00000000#32 reduces_S4000x64_S4000 hφ hacc (ix1 p)).trans ?_
  exact Finset.sum_congr rfl fun k _ => congrArg v (lift_row reduces_S4000x64_S4000 p k)

/-! ## The payload at an entry -/

/-- The row-wise log-softmax as the body computes it from the layer's values `f`: the row's maximum as a column
    subtracted, then the logarithm of the row's sum of exponentials as a column subtracted; at entry (p, q) it
    depends on row p of `f` only. -/
theorem lsm_at (f : FVec Ideal S4000x64 .f32) (hφ : FKind.Formats .f32)
    (hmax : (0xFF800000#32 : BitVec 32) = FKind.maximumf.neutral .f32 hφ)
    (hadd : (0x00000000#32 : BitVec 32) = FKind.add.neutral .f32 hφ) (p : Fin 4000) (q : Fin 64) :
    subf (subf f (broadcastTo S4000x64 (shapeCast S4000x1 (multiReduction (F := Ideal) .maximumf [1] S4000 f 0xFF800000#32 reduces_S4000x64_S4000 hφ hmax) shapeCasts_S4000_S4000x1) broadcasts_S4000x1_S4000x64))
      (broadcastTo S4000x64 (log (shapeCast S4000x1 (multiReduction (F := Ideal) .add [1] S4000
        (exp (subf f (broadcastTo S4000x64 (shapeCast S4000x1 (multiReduction (F := Ideal) .maximumf [1] S4000 f 0xFF800000#32 reduces_S4000x64_S4000 hφ hmax) shapeCasts_S4000_S4000x1) broadcasts_S4000x1_S4000x64)))
        0x00000000#32 reduces_S4000x64_S4000 hφ hadd) shapeCasts_S4000_S4000x1)) broadcasts_S4000x1_S4000x64) (ix2 p q)
      = Cert.Sage.lsm (fun j => f (ix2 p j)) q := by
  have hz : ∀ j : Fin 64, subf f (broadcastTo S4000x64 (shapeCast S4000x1 (multiReduction (F := Ideal) .maximumf [1] S4000 f 0xFF800000#32 reduces_S4000x64_S4000 hφ hmax) shapeCasts_S4000_S4000x1) broadcasts_S4000x1_S4000x64) (ix2 p j)
      = f (ix2 p j) - Cert.Sage.rowmax (fun j => f (ix2 p j)) := fun j => by
    rw [subf_apply, broadcastTo_col_apply, shapeCast_col_apply, rowmax_at]
  rw [subf_apply, hz q, broadcastTo_col_apply]
  show _ - Ideal.log (shapeCast S4000x1 _ shapeCasts_S4000_S4000x1 (ix2 p (0 : Fin 1))) = _
  rw [shapeCast_col_apply, rowsum_at]
  unfold Cert.Sage.lsm
  refine congrArg (fun s => (f (ix2 p q) - Cert.Sage.rowmax (fun j => f (ix2 p j))) - Ideal.log s) ?_
  exact Finset.sum_congr rfl fun k _ => by
    show Ideal.exp (subf f _ (ix2 p k)) = _
    rw [hz k]

/-- The layer before its activation on a block: rows of the two [4000,128] blocks against the two [128,64]
    weights, the products added first, then the bias row. -/
def lin (x0 x1 : Vec Ideal S4000x128 .f32) (x2 x3 : Vec Ideal S128x64 .f32) (x4 : Vec Ideal S1x64 .f32)
    (p : Fin 4000) (j : Fin 64) : EReal :=
  (∑ k : Fin 128, x0 (ix2 p k) * x2 (ix2 k j) + ∑ k : Fin 128, x1 (ix2 p k) * x3 (ix2 k j)) + x4 (ix2 (0 : Fin 1) j)

/-- The body's stored value at entry (p, q) of its block: the log-softmax of row p of the layer on the block. -/
theorem pay_at (x0 x1 : Vec Ideal S4000x128 .f32) (x2 x3 : Vec Ideal S128x64 .f32) (x4 : Vec Ideal S1x64 .f32)
    (p : Fin 4000) (q : Fin 64) :
    k1_pay1 (F := Ideal) x0 x1 x2 x3 x4 (ix2 p q) = Cert.Sage.lsm (fun j => lin x0 x1 x2 x3 x4 p j) q := by
  unfold k1_pay1
  refine (lsm_at _ _ _ _ p q).trans ?_
  refine congrArg (fun g => Cert.Sage.lsm g q) (funext fun j => ?_)
  unfold lin
  rw [addf_apply, addf_apply, matmul_at, matmul_at, broadcastTo_1b_ab_apply]
  simp only [truncf_apply, shapeCast_self]

/-! ## From blocks to the array -/

theorem hz : (![0, 0] : Fin 2 → Nat) = fun _ => 0 := funext fun a => by fin_cases a <;> rfl

/-- Two [4000,64] blocks agree when they agree at every (p, q). -/
theorem blk_ext {f g : S4000x64.Idx → EReal} (h : ∀ (p : Fin 4000) (q : Fin 64), f (ix2 p q) = g (ix2 p q)) : f = g :=
  funext fun j => by rw [eq_ix2 j]; exact h _ _

/-- The block indices at each of the 25 grid points: the row-blocked windows 0, 1 and 5 are at block (t, 0) at
    point t, the whole-array windows 2, 3 and 4 at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- Window 0's block at point t is rows 4000 t .. 4000 t + 3999 of its array. -/
theorem iblk0_at (c : Dev nD) (t : Fin cfg1.N) (p : Fin 4000) (k : Fin 128) (r : Fin 100000) (hr : r.val = t.val * 4000 + p.val) :
    (iblk1 V c 0 t : Vec Ideal S4000x128 .f32) (ix2 p k) = (V c main_v40 : S100000x128.Idx → Elt Ideal .f32) (ix2 r k) := by
  obtain ⟨e00, e01, -⟩ := idx_facts t
  unfold iblk1
  show V c main_v40 (((cfg1.win 0).blk t).view.emb (ix2 p k)) = V c main_v40 (ix2 r k)
  congr 1
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

/-- Window 1's block at point t is rows 4000 t .. 4000 t + 3999 of its array. -/
theorem iblk1_at (c : Dev nD) (t : Fin cfg1.N) (p : Fin 4000) (k : Fin 128) (r : Fin 100000) (hr : r.val = t.val * 4000 + p.val) :
    (iblk1 V c 1 t : Vec Ideal S4000x128 .f32) (ix2 p k) = (V c main_v28 : S100000x128.Idx → Elt Ideal .f32) (ix2 r k) := by
  obtain ⟨-, -, e10, e11, -⟩ := idx_facts t
  unfold iblk1
  show V c main_v28 (((cfg1.win 1).blk t).view.emb (ix2 p k)) = V c main_v28 (ix2 r k)
  congr 1
  funext a; apply Fin.ext
  match a with
  | ⟨0, _⟩ => show win1_1.index t (0 : Fin 2) * 4000 + 1 * p.val = r.val; omega
  | ⟨1, _⟩ => show win1_1.index t (1 : Fin 2) * 128 + 1 * k.val = k.val; omega

/-- Window 2's block at every point is its whole array. -/
theorem iblk2_eq (c : Dev nD) (t : Fin cfg1.N) : (iblk1 V c 2 t : Vec Ideal S128x64 .f32) = (V c main_v41 : S128x64.Idx → Elt Ideal .f32) := by
  obtain ⟨-, -, -, -, e20, e21, -⟩ := idx_facts t
  unfold iblk1
  funext y
  show V c main_v41 (((cfg1.win 2).blk t).view.emb y) = V c main_v41 y
  congr 1
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- Window 3's block at every point is its whole array. -/
theorem iblk3_eq (c : Dev nD) (t : Fin cfg1.N) : (iblk1 V c 3 t : Vec Ideal S128x64 .f32) = (V c main_v42 : S128x64.Idx → Elt Ideal .f32) := by
  obtain ⟨-, -, -, -, -, -, e30, e31, -⟩ := idx_facts t
  unfold iblk1
  funext y
  show V c main_v42 (((cfg1.win 3).blk t).view.emb y) = V c main_v42 y
  congr 1
  funext a; apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- Window 4's block at every point is its whole array. -/
theorem iblk4_eq (c : Dev nD) (t : Fin cfg1.N) : (iblk1 V c 4 t : Vec Ideal S1x64 .f32) = (V c main_v43 : S1x64.Idx → Elt Ideal .f32) := by
  obtain ⟨-, -, -, -, -, -, -, -, e40, e41, -⟩ := idx_facts t
  unfold iblk1
  funext y
  show V c main_v43 (((cfg1.win 4).blk t).view.emb y) = V c main_v43 y
  congr 1
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Entry (p, q) of the output's block at point t is entry (4000 t + p, q) of its array. -/
theorem emb5_at (t : Fin cfg1.N) (p : Fin 4000) (q : Fin 64) (r : Fin 100000) (hr : r.val = t.val * 4000 + p.val) :
    (((cfg1.win 5).blk t).view.emb (ix2 p q) : S100000x64.Idx) = ix2 r q := by
  obtain ⟨-, -, -, -, -, -, -, -, -, -, e50, e51, -⟩ := idx_facts t
  funext a; apply Fin.ext
  match a with
  | ⟨0, _⟩ => show win1_5.index t (0 : Fin 2) * 4000 + 1 * p.val = r.val; omega
  | ⟨1, _⟩ => show win1_5.index t (1 : Fin 2) * 64 + 1 * q.val = q.val; omega

/-- One entry of one point's block, over any arrays and blocks: when rows p of the two row blocks are rows r of the
    two node arrays and the three whole-array blocks are their arrays, the body's value at (p, q) is the second
    layer's at (r, q). -/
theorem point_eq (A X : FVec Ideal S100000x128 .f32) (Wl Wr : FVec Ideal S128x64 .f32) (b : FVec Ideal S1x64 .f32)
    (x0 x1 : Vec Ideal S4000x128 .f32) (x2 x3 : Vec Ideal S128x64 .f32) (x4 : Vec Ideal S1x64 .f32)
    (p : Fin 4000) (q : Fin 64) (r : Fin 100000)
    (h0 : ∀ k : Fin 128, x0 (ix2 p k) = A (ix2 r k)) (h1 : ∀ k : Fin 128, x1 (ix2 p k) = X (ix2 r k))
    (h2 : x2 = Wl) (h3 : x3 = Wr) (h4 : x4 = b) :
    k1_pay1 (F := Ideal) x0 x1 x2 x3 x4 (ix2 p q) = Cert.Sage.logits A X Wl Wr b (ix2 r q) := by
  subst h2 h3 h4
  rw [pay_at]
  show _ = Cert.Sage.lsm (fun j => Cert.Sage.linK A X x2 x3 x4 r j) q
  refine congrArg (fun g => Cert.Sage.lsm g q) (funext fun j => ?_)
  unfold lin Cert.Sage.linK
  simp only [h0, h1]

/-- What point t writes back is block t of the second layer of the five arrays as the region finds them. -/
theorem flushed_eq (c : Dev nD) (t : Fin cfg1.N) :
    (dat1 (F := Ideal) V c).flushed 5 t = ((cfg1.win 5).blk t).view.read (Elt Ideal)
      (Cert.Sage.logits (V c main_v40) (V c main_v28) (V c main_v41) (V c main_v42) (V c main_v43)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x64) hz, View.ld_unit_zero (S := S1x64) hz]
  have ht : t.val < 25 := (idx_facts t).2.2.2.2.2.2.2.2.2.2.2.2
  refine blk_ext fun p q => ?_
  show _ = Cert.Sage.logits _ _ _ _ _ (((cfg1.win 5).blk t).view.emb (ix2 p q))
  have hp : p.val < 4000 := p.isLt
  rw [emb5_at t p q ⟨t.val * 4000 + p.val, by omega⟩ rfl]
  exact point_eq _ _ _ _ _ _ _ _ _ _ p q _ (fun k => iblk0_at V c t p k _ rfl) (fun k => iblk1_at V c t p k _ rfl)
    (iblk2_eq V c t) (iblk3_eq V c t) (iblk4_eq V c t)

/-- An index of the array is in point t's block iff each coordinate is in the block's range on its axis. -/
theorem mem_blk (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v44).slice (win1_5.rect t)).set ↔ _
  rw [View.set_slice_whole, Rect.mem_set_unit]
  exact Iff.rfl

/-- Row r of the array is in the block of point r / 4000, which writes back. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_5 _, ?_⟩
  rw [mem_blk]
  obtain ⟨-, -, -, -, -, -, -, -, -, -, e50, e51, -⟩ := idx_facts ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e50]; show (i 0).val / 4000 * 4000 ≤ (i 0).val ∧ (i 0).val < (i 0).val / 4000 * 4000 + 4000; omega
  | ⟨1, _⟩ =>
    show win1_5.index _ (1 : Fin 2) * 64 ≤ (i 1).val ∧ (i 1).val < win1_5.index _ (1 : Fin 2) * 64 + 64
    rw [e51]; omega

/-- Region 1's result array after the run, whatever the region finds in its arrays. -/
theorem final1 (c : Dev nD) :
    (dat1 (F := Ideal) V c).arrAt 5 cfg1.N
      = Cert.Sage.logits (V c main_v40) (V c main_v28) (V c main_v41) (V c main_v42) (V c main_v43) :=
  (dat1 (F := Ideal) V c).arrAt_eq_of_cover 5 _ (fun t _ => flushed_eq V c t) cover

end Cert.KernelIdeal.Val1

end
-- ==== Proof.RefMath.lean ====
import proofs.«143447_j79405355368448_1_alg».proof.Proof.RefTerms
import proofs.«143447_j79405355368448_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Math

open Idealize.ShloMosaic Idealize.ShloMosaic.ValueIdx Cert.ReferenceIdeal Cert.ReferenceIdeal.Facts₀ Cert.ReferenceIdeal.Terms

/-! ## The matrix products at an entry -/

/-- The left operand's row coordinate is the output's row. -/
theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column coordinate is the contracted index. -/
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row coordinate is the contracted index. -/
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- The right operand's column coordinate is the output's column. -/
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- A [100000,128] by [128,128] product at entry (r, j): the sum over k of row r of the left operand times column j
    of the right. -/
theorem dot128_at (a : FVec Ideal S100000x128 .f32) (w : FVec Ideal S128x128 .f32) (r : Fin 100000) (j : Fin 128) :
    Host.dotGeneral dot_S100000x128_S128x128_S100000x128_1_0_0_1_n_n none a w (ix2 r j) = ∑ k : Fin 128, a (ix2 r k) * w (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-- The left operand's row coordinate is the output's row. -/
theorem lhs64_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- The left operand's column coordinate is the contracted index. -/
theorem lhs64_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
/-- The right operand's row coordinate is the contracted index. -/
theorem rhs64_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
/-- The right operand's column coordinate is the output's column. -/
theorem rhs64_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- A [100000,128] by [128,64] product at entry (r, j): the sum over k of row r of the left operand times column j
    of the right. -/
theorem dot64_at (a : FVec Ideal S100000x128 .f32) (w : FVec Ideal S128x64 .f32) (r : Fin 100000) (j : Fin 64) :
    Host.dotGeneral dot_S100000x128_S128x64_S100000x64_1_0_0_1_n_n none a w (ix2 r j) = ∑ k : Fin 128, a (ix2 r k) * w (ix2 k j) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r j) ((contrEquiv1 dot_S100000x128_S128x64_S100000x64_1_0_0_1_n_n 128 rfl rfl).symm k) = ix2 r k := funext fun a => Fin.ext (by
    match a with
    | ⟨0, _⟩ => exact lhs64_0 _ _
    | ⟨1, _⟩ => exact (lhs64_1 _ _).trans hk)
  have er : dot_S100000x128_S128x64_S100000x64_1_0_0_1_n_n.rhsIdx (ix2 r j) ((contrEquiv1 dot_S100000x128_S128x64_S100000x64_1_0_0_1_n_n 128 rfl rfl).symm k) = ix2 k j := funext fun a => Fin.ext (by
    match a with
    | ⟨0, _⟩ => exact (rhs64_0 _ _).trans hk
    | ⟨1, _⟩ => exact rhs64_1 _ _)
  rw [el, er]

/-! ## Broadcasts at an entry -/

section Broadcasts
variable {α : Type}

/-- A vector [m] placed as the row of a [1, m] array reads, at (u, j), the vector at j. -/
theorem bcast_vec_row {m : Nat} (x : (⟨1, ![m]⟩ : Shape).Idx → α) (h : (⟨1, ![m]⟩ : Shape).BroadcastsInDim ⟨2, ![1, m]⟩ ![1])
    (u : Fin 1) (j : Fin m) : broadcastInDim ⟨2, ![1, m]⟩ ![1] h x (ix2 u j) = x (ix1 j) :=
  broadcastInDim_apply _ h x (ix2 u j) (ix1 j) (fun a => match a with
    | ⟨0, _⟩ => by
      show j.val = if m = 1 then 0 else j.val
      split
      · have := j.isLt; omega
      · rfl)

/-- A [1, m] row repeated over n rows reads, at (r, j), the row at j. -/
theorem bcast_row_rows {n m : Nat} (x : (⟨2, ![1, m]⟩ : Shape).Idx → α) (h : (⟨2, ![1, m]⟩ : Shape).BroadcastsInDim ⟨2, ![n, m]⟩ ![0, 1])
    (r : Fin n) (j : Fin m) : broadcastInDim ⟨2, ![n, m]⟩ ![0, 1] h x (ix2 r j) = x (ix2 (0 : Fin 1) j) :=
  broadcastInDim_apply _ h x (ix2 r j) (ix2 (0 : Fin 1) j) (fun a => match a with
    | ⟨0, _⟩ => by show 0 = if (1 : Nat) = 1 then 0 else r.val; rw [if_pos rfl]
    | ⟨1, _⟩ => by
      show j.val = if m = 1 then 0 else j.val
      split
      · have := j.isLt; omega
      · rfl)

/-- A vector [n] placed as the column of an [n, 1] array reads, at (r, u), the vector at r. -/
theorem bcast_vec_col {n : Nat} (x : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h x (ix2 r u) = x (ix1 r) :=
  broadcastInDim_apply _ h x (ix2 r u) (ix1 r) (fun a => match a with
    | ⟨0, _⟩ => by
      show r.val = if n = 1 then 0 else r.val
      split
      · have := r.isLt; omega
      · rfl)

/-- An [n, 1] column repeated over m columns reads, at (r, j), the column at r. -/
theorem bcast_col_cols {n m : Nat} (x : (⟨2, ![n, 1]⟩ : Shape).Idx → α) (h : (⟨2, ![n, 1]⟩ : Shape).BroadcastsInDim ⟨2, ![n, m]⟩ ![0, 1])
    (r : Fin n) (j : Fin m) : broadcastInDim ⟨2, ![n, m]⟩ ![0, 1] h x (ix2 r j) = x (ix2 r (0 : Fin 1)) :=
  broadcastInDim_apply _ h x (ix2 r j) (ix2 r (0 : Fin 1)) (fun a => match a with
    | ⟨0, _⟩ => by
      show r.val = if n = 1 then 0 else r.val
      split
      · have := r.isLt; omega
      · rfl
    | ⟨1, _⟩ => by show 0 = if (1 : Nat) = 1 then 0 else j.val; rw [if_pos rfl])

/-- A scalar repeated over any shape reads the scalar everywhere. -/
theorem bcast_scalar {t : Shape} (x : S_.Idx → α) (h : S_.BroadcastsInDim t ![]) (i : t.Idx) :
    broadcastInDim t ![] h x i = x ix0 :=
  broadcastInDim_apply _ h x i ix0 (fun a => a.elim0)

end Broadcasts

/-! ## The layers before their activations, at an entry -/

/-- The first layer before its activation at entry (r, j): the first product and the bias added first. -/
theorem preact128_at (A X : FVec Ideal S100000x128 .f32) (Wl Wr : FVec Ideal S128x128 .f32) (b : FVec Ideal S128 .f32)
    (r : Fin 100000) (j : Fin 128) :
    preact128 (F := Ideal) A X Wl Wr b (ix2 r j) = Cert.Sage.linR A X Wl Wr b r j := by
  unfold preact128 Cert.Sage.linR
  rw [addf_apply, addf_apply, dot128_at, dot128_at, bcast_row_rows, bcast_vec_row]

/-- The second layer before its activation at entry (r, j): the first product and the bias added first. -/
theorem preact64_at (A X : FVec Ideal S100000x128 .f32) (Wl Wr : FVec Ideal S128x64 .f32) (b : FVec Ideal S64 .f32)
    (r : Fin 100000) (j : Fin 64) :
    preact64 (F := Ideal) A X Wl Wr b (ix2 r j) = Cert.Sage.linR A X Wl Wr b r j := by
  unfold preact64 Cert.Sage.linR
  rw [addf_apply, addf_apply, dot64_at, dot64_at, bcast_row_rows, bcast_vec_row]

/-! ## The clamp at zero -/

/-- The maximum with the zero array, at any entry. -/
theorem relu_at (z : FVec Ideal S100000x128 .f32) (i : S100000x128.Idx) : reluOps (F := Ideal) z i = max (z i) 0 := by
  unfold reluOps
  rw [maximumf_apply, bcast_scalar, constant_apply, Ideal.ofBits_zero_f32]

/-! ## A row's maximum and sum, and the log-softmax -/

/-- The reduced index r with column k put back is (r, k). -/
theorem lift_row (h : S100000x64.Reduces [1] S100000) (r : Fin 100000) (k : Fin (S100000x64.size 1)) :
    h.lift (ix1 r) k = ix2 r (⟨k.val, k.isLt⟩ : Fin 64) := by
  funext c; apply Fin.ext
  fin_cases c <;> rfl

/-- The max-reduce of row r from minus infinity is the row's maximum. -/
theorem rowmax_at (z : FVec Ideal S100000x64 .f32) (r : Fin 100000) :
    Host.reduce FloatOps.maximumf z (constant (F := Ideal) S_ .f32 0xFF800000#32) reducesTo_S100000x64_S100000_d1 h_S_ (ix1 r)
      = Cert.Sage.rowmax (fun k => z (ix2 r k)) := by
  have h : S100000x64.Reduces [1] S100000 := by decide
  rw [Host.reduce_eq_fold_single FloatOps.maximumf z _ reducesTo_S100000x64_S100000_d1 h h_S_]
  have hf : (z ∘ h.lift (ix1 r)) = fun k : Fin 64 => z (ix2 r k) := funext fun k => congrArg z (lift_row h r k)
  rw [hf]
  rfl

/-- The add-reduce of row r from zero is the row's sum. -/
theorem rowsum_at (y : FVec Ideal S100000x64 .f32) (r : Fin 100000) :
    Host.reduceAdd y (constant (F := Ideal) S_ .f32 0x00000000#32) reducesTo_S100000x64_S100000_d1 h_S_ (ix1 r)
      = ∑ k : Fin 64, y (ix2 r k) := by
  have h : S100000x64.Reduces [1] S100000 := by decide
  simp only [Host.reduceAdd, Ideal.hostReduceAdd_def]
  rw [Ideal.hostReduceAdd_single reducesTo_S100000x64_S100000_d1 h]
  show Ideal.ofBits .f32 0x00000000#32 + _ = _
  rw [Ideal.ofBits_zero_f32, zero_add]
  exact Finset.sum_congr rfl fun k _ => congrArg y (lift_row h r k)

/-- A matrix minus its row maxima, at entry (r, j): the maximum with minus infinity once more changes nothing. -/
theorem centred_at (z : FVec Ideal S100000x64 .f32) (r : Fin 100000) (j : Fin 64) :
    centred (F := Ideal) z (ix2 r j) = z (ix2 r j) - Cert.Sage.rowmax (fun k => z (ix2 r k)) := by
  unfold centred
  rw [subf_apply, bcast_col_cols, bcast_vec_col, maximumf_apply, bcast_scalar, constant_apply, rowmax_at,
    Cert.Sage.ofBits_neg_inf]
  exact congrArg (z (ix2 r j) - ·) (max_eq_right bot_le)

/-- The host's logarithm at an entry. -/
theorem hostLog_at {s : Shape} (x : FVec Ideal s .f32) (i : s.Idx) : Host.log x i = Ideal.log (x i) := rfl
/-- The host's exponential at an entry. -/
theorem hostExp_at {s : Shape} (x : FVec Ideal s .f32) (i : s.Idx) : Host.exp x i = Ideal.exp (x i) := rfl

/-- The row-wise log-softmax at entry (r, j) depends on row r only. -/
theorem lsm_at (z : FVec Ideal S100000x64 .f32) (r : Fin 100000) (j : Fin 64) :
    logSoftmaxOps (F := Ideal) z (ix2 r j) = Cert.Sage.lsm (fun k => z (ix2 r k)) j := by
  unfold logSoftmaxOps
  rw [subf_apply, centred_at, bcast_col_cols, hostLog_at, bcast_vec_col, rowsum_at]
  unfold Cert.Sage.lsm
  refine congrArg (fun s => (z (ix2 r j) - Cert.Sage.rowmax (fun k => z (ix2 r k))) - Ideal.log s) ?_
  exact Finset.sum_congr rfl fun k _ => by rw [hostExp_at, centred_at]

/-! ## The two layers, read at an entry -/

/-- The first layer's operations, read at an entry: the layer (first product and bias first) clamped below at zero. -/
theorem hidden_apply (A X : FVec Ideal S100000x128 .f32) (Wl Wr : FVec Ideal S128x128 .f32) (b : FVec Ideal S128 .f32)
    (i : S100000x128.Idx) :
    reluOps (F := Ideal) (preact128 A X Wl Wr b) i = max (Cert.Sage.linR A X Wl Wr b (i 0) (i 1)) 0 := by
  obtain ⟨r, j, rfl⟩ : ∃ (r : Fin 100000) (j : Fin 128), i = ix2 r j := ⟨i 0, i 1, eq_ix2 i⟩
  rw [relu_at, preact128_at]

/-- The second layer's operations, read at an entry: the log-softmax of the layer's row. -/
theorem logits_apply (A X : FVec Ideal S100000x128 .f32) (Wl Wr : FVec Ideal S128x64 .f32) (b : FVec Ideal S64 .f32)
    (i : S100000x64.Idx) :
    logSoftmaxOps (F := Ideal) (preact64 A X Wl Wr b) i = Cert.Sage.lsm (fun j => Cert.Sage.linR A X Wl Wr b (i 0) j) (i 1) := by
  obtain ⟨r, j, rfl⟩ : ∃ (r : Fin 100000) (j : Fin 64), i = ix2 r j := ⟨i 0, i 1, eq_ix2 i⟩
  rw [lsm_at]
  exact congrArg (fun g => Cert.Sage.lsm g j) (funext fun k => preact64_at A X Wl Wr b r k)

end Cert.ReferenceIdeal.Math

end
-- ==== Proof.Bridge.lean ====
/-
  The two programs compute one function of the arguments, at the extended reals.

  The kernel program's regions leave `hidden` and `logits` (the specification's two layers, the bias a row, the two
  matrix products added first) of what the host stretches stage: the neighbour mean as the sum TIMES the reciprocal of
  the clamped degree.  The reference's operations are `hiddenRef` and `refOut`: the same layers with the first product
  and the bias added first, over the neighbour mean as the sum DIVIDED by the clamped degree.  Three laws join them:
  the clamped degree max(deg, 1) is never zero, so multiplying by its reciprocal is dividing by it (`mean_eq`);
  addition of extended reals is commutative and associative, so the two groupings of the three summands agree
  (`linK_eq_linR`); a vector cast to a row reads as the vector.  Gather and scatter-add are never opened.
-/
import proofs.«143447_j79405355368448_1_alg».proof.Proof.KHost
import proofs.«143447_j79405355368448_1_alg».proof.Proof.KVal0
import proofs.«143447_j79405355368448_1_alg».proof.Proof.KVal1
import proofs.«143447_j79405355368448_1_alg».proof.Proof.RefMath
import Idealize.ShloMosaic.Lib.ValueLayout

set_option maxRecDepth 16384

noncomputable section

namespace Cert.Proof.Bridge

open Idealize.ShloMosaic Idealize.ShloMosaic.TcCoe Idealize.SL.Sem Idealize.ShloMosaic.ValueIdx
open Cert.KernelIdeal.Graph Cert.ReferenceIdeal.Terms

/-! ## The laws, over arbitrary arrays -/

/-- For ANY array of sums `S` and ANY degree array `deg`: `S` times the broadcast reciprocal of max(deg, 1) is `S` divided
    by the broadcast max(deg, 1), entry by entry, because max(deg, 1) is at least one. -/
theorem mean_law (S : FVec Ideal Cert.KernelIdeal.S100000x128 .f32) (deg : FVec Ideal Cert.KernelIdeal.S100000 .f32) :
    mulf S (broadcastInDim Cert.KernelIdeal.S100000x128 ![0, 1] Cert.KernelIdeal.Gen.bcast_S100000x1_S100000x128_0_1
        (broadcastInDim Cert.KernelIdeal.S100000x1 ![0] Cert.KernelIdeal.Gen.bcast_S100000_S100000x1_0
          (Host.divf (broadcastInDim Cert.KernelIdeal.S100000 ![] Cert.KernelIdeal.Gen.bcast_S_S100000 (constant (F := Ideal) Cert.KernelIdeal.S_ .f32 0x3F800000#32))
            (maximumf deg (broadcastInDim Cert.KernelIdeal.S100000 ![] Cert.KernelIdeal.Gen.bcast_S_S100000 (constant (F := Ideal) Cert.KernelIdeal.S_ .f32 0x3F800000#32))))))
      = Host.divf S (broadcastInDim Cert.KernelIdeal.S100000x128 ![0, 1] Cert.KernelIdeal.Gen.bcast_S100000x1_S100000x128_0_1
          (broadcastInDim Cert.KernelIdeal.S100000x1 ![0] Cert.KernelIdeal.Gen.bcast_S100000_S100000x1_0
            (maximumf deg (broadcastInDim Cert.KernelIdeal.S100000 ![] Cert.KernelIdeal.Gen.bcast_S_S100000 (constant (F := Ideal) Cert.KernelIdeal.S_ .f32 0x3F800000#32))))) := by
  funext i
  -- both sides read the degree at the one row index `ι` the two broadcasts send `i` to
  show S i * Ideal.div (Ideal.ofBits .f32 0x3F800000#32) (max (deg _) (Ideal.ofBits .f32 0x3F800000#32))
      = Ideal.div (S i) (max (deg _) (Ideal.ofBits .f32 0x3F800000#32))
  rw [Cert.Sage.ofBits_one]
  exact Cert.Sage.mul_inv_eq_div _ _ (Cert.Sage.max_one_ne_zero _)

/-- The neighbour mean: the sum times the reciprocal of the clamped degree is the sum divided by it. -/
theorem mean_eq (x : FVec Ideal Cert.KernelIdeal.S100000x128 .f32) (e : IVec Cert.KernelIdeal.S2x1600000 32) :
    meanMul (F := Ideal) x e = meanDiv x e := by
  unfold meanMul meanDiv invDeg degMax
  exact mean_law _ _

/-- The first layer: the specification's `hidden` over the product form of the mean, the bias cast to a row, is the
    reference's first layer over the quotient form. -/
theorem hidden_eq (x : FVec Ideal Cert.KernelIdeal.S100000x128 .f32) (e : IVec Cert.KernelIdeal.S2x1600000 32)
    (w1l : FVec Ideal Cert.KernelIdeal.S128x128 .f32) (b1 : FVec Ideal Cert.KernelIdeal.S128 .f32) (w1r : FVec Ideal Cert.KernelIdeal.S128x128 .f32) :
    Cert.Sage.hidden (meanMul (F := Ideal) x e) x
        (transpose Cert.KernelIdeal.S128x128 [1, 0] w1l Cert.KernelIdeal.Gen.transposes_S128x128_S128x128_1_0)
        (transpose Cert.KernelIdeal.S128x128 [1, 0] w1r Cert.KernelIdeal.Gen.transposes_S128x128_S128x128_1_0)
        (shapeCast Cert.KernelIdeal.S1x128 b1 Cert.KernelIdeal.Gen.shapeCasts_S128_S1x128)
      = hiddenRef (F := Ideal) x e w1l b1 w1r := by
  funext i
  unfold hiddenRef
  rw [Cert.ReferenceIdeal.Math.hidden_apply]
  unfold Cert.Sage.hidden
  rw [mean_eq]
  exact congrArg (fun t => max t 0) (Cert.Sage.linK_eq_linR _ _ _ _ _ b1 (fun j => shapeCast_a_1a_apply b1 _ (0 : Fin 1) j) _ _)

/-- The second layer over the first: the specification's `logits` is the reference's output. -/
theorem out_eq (x : FVec Ideal Cert.KernelIdeal.S100000x128 .f32) (e : IVec Cert.KernelIdeal.S2x1600000 32)
    (w1l : FVec Ideal Cert.KernelIdeal.S128x128 .f32) (b1 : FVec Ideal Cert.KernelIdeal.S128 .f32) (w1r : FVec Ideal Cert.KernelIdeal.S128x128 .f32)
    (w2l : FVec Ideal Cert.KernelIdeal.S64x128 .f32) (b2 : FVec Ideal Cert.KernelIdeal.S64 .f32) (w2r : FVec Ideal Cert.KernelIdeal.S64x128 .f32) :
    Cert.Sage.logits (meanMul (F := Ideal) (hiddenRef (F := Ideal) x e w1l b1 w1r) e) (hiddenRef (F := Ideal) x e w1l b1 w1r)
        (transpose Cert.KernelIdeal.S128x64 [1, 0] w2l Cert.KernelIdeal.Gen.transposes_S64x128_S128x64_1_0)
        (transpose Cert.KernelIdeal.S128x64 [1, 0] w2r Cert.KernelIdeal.Gen.transposes_S64x128_S128x64_1_0)
        (shapeCast Cert.KernelIdeal.S1x64 b2 Cert.KernelIdeal.Gen.shapeCasts_S64_S1x64)
      = refOut (F := Ideal) x e w1l b1 w1r w2l b2 w2r := by
  funext i
  unfold refOut
  rw [Cert.ReferenceIdeal.Math.logits_apply]
  unfold Cert.Sage.logits
  rw [mean_eq]
  refine congrArg (fun f => Cert.Sage.lsm f (i 1)) (funext fun j => ?_)
  exact Cert.Sage.linK_eq_linR _ _ _ _ _ b2 (fun j => shapeCast_a_1a_apply b2 _ (0 : Fin 1) j) _ _

/-! ## The kernel program's result array -/

section Kernel

open Cert.KernelIdeal Cert.KernelIdeal.Gen Cert.KernelIdeal.HostV

variable (m : (ℓ : Loc nD τ sig) → Buf (Elt Ideal) ℓ) (ρ : Dev nD → PrngReg)

/-- Region 0 leaves the first layer's output, over the launch contents. -/
theorem W2_v28 (c : Dev nD) :
    W2 m ρ c (Proc.devRef .tc main_v28)
      = hiddenRef (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ((Cert.KernelIdeal.Val0.final0 (V1 m ρ) c).trans ?_)
  rw [V1_v24, V1_arg0, V1_v25, V1_v26, V1_v27]
  exact hidden_eq _ _ _ _ _

/-- Region 1 leaves the network's output, over the launch contents. -/
theorem W4_v44 (c : Dev nD) :
    W4 m ρ c (Proc.devRef .tc main_v44)
      = refOut (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ((Cert.KernelIdeal.Val1.final1 (V3 m ρ) c).trans ?_)
  rw [V3_v40, V3_v28, V3_v41, V3_v42, V3_v43, W2_v28]
  exact out_eq _ _ _ _ _ _ _ _

end Kernel

end Cert.Proof.Bridge

end
-- ==== Proof.lean ====
/-
  The certificate of a two-layer mean-aggregation graph network: the kernel program (two fused dense kernels, each
  on a grid of 25 row blocks, among host gather / scatter-add stretches) against its jnp reference.

  The three frames: the kernel program's two are the generated frame certificates; the reference has no kernel,
  and its frame is its run with the result dropped.  The idealization rewrote nothing, so `preserves` is trivial.
  The value claim: the kernel program's result array ends at the last segment boundary's contents of that buffer,
  which the region values and the host stretches read as one whole-array function `refOut` of the eight arguments
  (Proof/Bridge.lean: the mean as product or quotient, the order of the three summands, the bias row); the
  reference's run ends at its operations' fold, which is the same `refOut` of its own arguments (Proof/RefVal.lean);
  the arguments agree.
-/
import proofs.«143447_j79405355368448_1_alg».proof.Defs
import proofs.«143447_j79405355368448_1_alg».proof.Proof.Gen.Kernel
import proofs.«143447_j79405355368448_1_alg».proof.Proof.Gen.Kernel.Frame
import proofs.«143447_j79405355368448_1_alg».proof.Proof.Gen.KernelIdeal
import proofs.«143447_j79405355368448_1_alg».proof.Proof.Gen.KernelIdeal.Frame
import proofs.«143447_j79405355368448_1_alg».proof.Proof.Gen.ReferenceIdeal
import proofs.«143447_j79405355368448_1_alg».proof.Proof.Gen.Pre_finite_inputs
import proofs.«143447_j79405355368448_1_alg».proof.Proof.KernelRun
import proofs.«143447_j79405355368448_1_alg».proof.Proof.RefRun
import proofs.«143447_j79405355368448_1_alg».proof.Proof.RefVal
import proofs.«143447_j79405355368448_1_alg».proof.Proof.Bridge
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Both programs end at `refOut` of the arguments, which agree. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.ref_value, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Proof.Bridge.W4_v44 m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref, trivial, algebraic⟩

end Cert.Proof

end
